-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x224x224 : Shape := ⟨4, ![8, 64, 224, 224]⟩
abbrev S1x64x9x1x1 : Shape := ⟨5, ![1, 64, 9, 1, 1]⟩
abbrev S_ : Shape := ⟨0, ![]⟩

class Facts : Prop where
  bcast_S_S8x64x224x224 : S_.BroadcastsInDim S8x64x224x224 (![] : Fin 0 → Fin S8x64x224x224.rank)
  reducesTo_S8x64x224x224_S_d0_1_2_3 : S8x64x224x224.ReducesTo [0, 1, 2, 3] S_
  h_S_ : 0 < S_.numel
  bcast_S_S1x64x9x1x1 : S_.BroadcastsInDim S1x64x9x1x1 (![] : Fin 0 → Fin S1x64x9x1x1.rank)
  reducesTo_S1x64x9x1x1_S_d0_1_2_3_4 : S1x64x9x1x1.ReducesTo [0, 1, 2, 3, 4] S_

variable [Facts]

def fn {F : FTy → Type} [FloatOps F] (main_arg0 : FVec F S8x64x224x224 .f32) (main_arg1 : FVec F S1x64x9x1x1 .f32) : IVec S_ 1 :=
  let main_v0 : FVec F S8x64x224x224 .f32 := Host.absf main_arg0
  let main_cst : FVec F S_ .f32 := constant S_ .f32 0x7F800000#32
  let main_v1 : FVec F S8x64x224x224 .f32 := broadcastInDim S8x64x224x224 ![] bcast_S_S8x64x224x224 main_cst
  let main_v2 : IVec S8x64x224x224 1 := cmpf .olt main_v0 main_v1
  let main_c : IVec S_ 1 := constantI S_ 1 1#1
  let main_v3 : IVec S_ 1 := (fun x v => Host.reduce IntOp.andi x v reducesTo_S8x64x224x224_S_d0_1_2_3 h_S_) main_v2 main_c
  let main_v4 : FVec F S1x64x9x1x1 .f32 := Host.absf main_arg1
  let main_cst_0 : FVec F S_ .f32 := constant S_ .f32 0x7F800000#32
  let main_v5 : FVec F S1x64x9x1x1 .f32 := broadcastInDim S1x64x9x1x1 ![] bcast_S_S1x64x9x1x1 main_cst_0
  let main_v6 : IVec S1x64x9x1x1 1 := cmpf .olt main_v4 main_v5
  let main_c_1 : IVec S_ 1 := constantI S_ 1 1#1
  let main_v7 : IVec S_ 1 := (fun x v => Host.reduce IntOp.andi x v reducesTo_S1x64x9x1x1_S_d0_1_2_3_4 h_S_) main_v6 main_c_1
  let main_v8 : IVec S_ 1 := andi main_v3 main_v7
  main_v8
-- ==== Kernel.lean ====
abbrev S8x64x224x224 : Shape := ⟨4, ![8, 64, 224, 224]⟩
abbrev S1x64x9x1x1 : Shape := ⟨5, ![1, 64, 9, 1, 1]⟩
abbrev S_ : Shape := ⟨0, ![]⟩
abbrev S8x64x226x226 : Shape := ⟨4, ![8, 64, 226, 226]⟩
abbrev S1x16x226x226 : Shape := ⟨4, ![1, 16, 226, 226]⟩
abbrev S1x16x9x1x1 : Shape := ⟨5, ![1, 16, 9, 1, 1]⟩
abbrev S1x16x224x224 : Shape := ⟨4, ![1, 16, 224, 224]⟩
abbrev S1x16x1x1x1 : Shape := ⟨5, ![1, 16, 1, 1, 1]⟩
abbrev S1x16x1x1 : Shape := ⟨4, ![1, 16, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x64x224x224, .f32⟩
  | .hbm, ⟨1, _⟩ => ⟨S1x64x9x1x1, .f32⟩
  | .hbm, ⟨2, _⟩ => ⟨S_, .i32⟩
  | .hbm, ⟨3, _⟩ => ⟨S_, .f32⟩
  | .hbm, ⟨4, _⟩ => ⟨S8x64x226x226, .f32⟩
  | .hbm, ⟨5, _⟩ => ⟨S8x64x224x224, .f32⟩
  | .local _ .vmem, ⟨0, _⟩ => ⟨S1x16x226x226, .f32⟩
  | .local _ .vmem, ⟨1, _⟩ => ⟨S1x16x226x226, .f32⟩
  | .local _ .vmem, ⟨2, _⟩ => ⟨S1x16x9x1x1, .f32⟩
  | .local _ .vmem, ⟨3, _⟩ => ⟨S1x16x9x1x1, .f32⟩
  | .local _ .vmem, ⟨4, _⟩ => ⟨S1x16x224x224, .f32⟩
  | .local _ .vmem, ⟨5, _⟩ => ⟨S1x16x224x224, .f32⟩
  | _, _ => ⟨S8x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x226x226 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x9x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x64x224x224_S8x64x226x226_000_000_110_110 : S8x64x224x224.Pads (![0, 0, 1, 1] : Fin 4 → Nat) ![0, 0, 1, 1] ![0, 0, 0, 0] S8x64x226x226
  h_S_ : 0 < S_.numel
  inb_S1x16x226x226_S1x16x224x224_0_0_0_0 : ∀ a, (![0, 0, 0, 0] : Fin 4 → Nat) a + S1x16x224x224.size a ≤ S1x16x226x226.size a
  h_S1x16x224x224 : 0 < S1x16x224x224.numel
  shapeCasts_S1x16x224x224_S1x16x224x224 : S1x16x224x224.ShapeCasts S1x16x224x224
  inb_S1x16x9x1x1_S1x16x1x1x1_0_0_0_0_0 : ∀ a, (![0, 0, 0, 0, 0] : Fin 5 → Nat) a + S1x16x1x1x1.size a ≤ S1x16x9x1x1.size a
  h_S1x16x1x1x1 : 0 < S1x16x1x1x1.numel
  shapeCasts_S1x16x1x1x1_S1x16x1x1 : S1x16x1x1x1.ShapeCasts S1x16x1x1
  broadcasts_S1x16x1x1_S1x16x224x224 : S1x16x1x1.Broadcasts S1x16x224x224
  inb_S1x16x226x226_S1x16x224x224_0_0_0_1 : ∀ a, (![0, 0, 0, 1] : Fin 4 → Nat) a + S1x16x224x224.size a ≤ S1x16x226x226.size a
  inb_S1x16x9x1x1_S1x16x1x1x1_0_0_1_0_0 : ∀ a, (![0, 0, 1, 0, 0] : Fin 5 → Nat) a + S1x16x1x1x1.size a ≤ S1x16x9x1x1.size a
  inb_S1x16x226x226_S1x16x224x224_0_0_0_2 : ∀ a, (![0, 0, 0, 2] : Fin 4 → Nat) a + S1x16x224x224.size a ≤ S1x16x226x226.size a
  inb_S1x16x9x1x1_S1x16x1x1x1_0_0_2_0_0 : ∀ a, (![0, 0, 2, 0, 0] : Fin 5 → Nat) a + S1x16x1x1x1.size a ≤ S1x16x9x1x1.size a
  inb_S1x16x226x226_S1x16x224x224_0_0_1_0 : ∀ a, (![0, 0, 1, 0] : Fin 4 → Nat) a + S1x16x224x224.size a ≤ S1x16x226x226.size a
  inb_S1x16x9x1x1_S1x16x1x1x1_0_0_3_0_0 : ∀ a, (![0, 0, 3, 0, 0] : Fin 5 → Nat) a + S1x16x1x1x1.size a ≤ S1x16x9x1x1.size a
  inb_S1x16x226x226_S1x16x224x224_0_0_1_1 : ∀ a, (![0, 0, 1, 1] : Fin 4 → Nat) a + S1x16x224x224.size a ≤ S1x16x226x226.size a
  inb_S1x16x9x1x1_S1x16x1x1x1_0_0_4_0_0 : ∀ a, (![0, 0, 4, 0, 0] : Fin 5 → Nat) a + S1x16x1x1x1.size a ≤ S1x16x9x1x1.size a
  inb_S1x16x226x226_S1x16x224x224_0_0_1_2 : ∀ a, (![0, 0, 1, 2] : Fin 4 → Nat) a + S1x16x224x224.size a ≤ S1x16x226x226.size a
  inb_S1x16x9x1x1_S1x16x1x1x1_0_0_5_0_0 : ∀ a, (![0, 0, 5, 0, 0] : Fin 5 → Nat) a + S1x16x1x1x1.size a ≤ S1x16x9x1x1.size a
  inb_S1x16x226x226_S1x16x224x224_0_0_2_0 : ∀ a, (![0, 0, 2, 0] : Fin 4 → Nat) a + S1x16x224x224.size a ≤ S1x16x226x226.size a
  inb_S1x16x9x1x1_S1x16x1x1x1_0_0_6_0_0 : ∀ a, (![0, 0, 6, 0, 0] : Fin 5 → Nat) a + S1x16x1x1x1.size a ≤ S1x16x9x1x1.size a
  inb_S1x16x226x226_S1x16x224x224_0_0_2_1 : ∀ a, (![0, 0, 2, 1] : Fin 4 → Nat) a + S1x16x224x224.size a ≤ S1x16x226x226.size a
  inb_S1x16x9x1x1_S1x16x1x1x1_0_0_7_0_0 : ∀ a, (![0, 0, 7, 0, 0] : Fin 5 → Nat) a + S1x16x1x1x1.size a ≤ S1x16x9x1x1.size a
  inb_S1x16x226x226_S1x16x224x224_0_0_2_2 : ∀ a, (![0, 0, 2, 2] : Fin 4 → Nat) a + S1x16x224x224.size a ≤ S1x16x226x226.size a
  inb_S1x16x9x1x1_S1x16x1x1x1_0_0_8_0_0 : ∀ a, (![0, 0, 8, 0, 0] : Fin 5 → Nat) a + S1x16x1x1x1.size a ≤ S1x16x9x1x1.size a
  inb_S1x16x224x224_S1x16x224x224_0_0_0_0 : ∀ a, (![0, 0, 0, 0] : Fin 4 → Nat) a + S1x16x224x224.size a ≤ S1x16x224x224.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x226x226.size a ≤ S8x64x226x226.size a
  hwx0_0 : ∀ i : grid0.Coords, EltTy.bits .f32 = 32 ∨ (Rect.block (s := S8x64x226x226) S1x16x226x226.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x9x1x1.size a ≤ S1x64x9x1x1.size a
  hwx0_1 : ∀ i : grid0.Coords, EltTy.bits .f32 = 32 ∨ (Rect.block (s := S1x64x9x1x1) S1x16x9x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x224x224.size a ≤ S8x64x224x224.size a
  hwx0_2 : ∀ i : grid0.Coords, EltTy.bits .f32 = 32 ∨ (Rect.block (s := S8x64x224x224) S1x16x224x224.size (cc0_transform_2 i) (hinb0_2 i)).WholeWords (EltTy.packing .f32)

variable [Facts₀]

abbrev win0_0 : Pipeline.Window sig grid0 :=
  Pipeline.Window.ofSpec (Memref.whole main_v0) S1x16x226x226.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x9x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x224x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x224x224 : Shape := ⟨4, ![8, 64, 224, 224]⟩
abbrev S1x64x9x1x1 : Shape := ⟨5, ![1, 64, 9, 1, 1]⟩
abbrev S_ : Shape := ⟨0, ![]⟩
abbrev S8x64x226x226 : Shape := ⟨4, ![8, 64, 226, 226]⟩
abbrev S8x64x1x224x224 : Shape := ⟨5, ![8, 64, 1, 224, 224]⟩
abbrev S8x64x9x224x224 : Shape := ⟨5, ![8, 64, 9, 224, 224]⟩

abbrev nBuf : Space → Nat
  | .hbm => 28
  | .vmem => 0
  | .smem => 0
  | _ => 0

abbrev bufTy : (tb : Table) → Fin (tcTables nBuf tb) → BufTy
  | .hbm, ⟨0, _⟩ => ⟨S8x64x224x224, .f32⟩
  | .hbm, ⟨1, _⟩ => ⟨S1x64x9x1x1, .f32⟩
  | .hbm, ⟨2, _⟩ => ⟨S_, .i32⟩
  | .hbm, ⟨3, _⟩ => ⟨S_, .f32⟩
  | .hbm, ⟨4, _⟩ => ⟨S8x64x226x226, .f32⟩
  | .hbm, ⟨5, _⟩ => ⟨S8x64x224x224, .f32⟩
  | .hbm, ⟨6, _⟩ => ⟨S8x64x224x224, .f32⟩
  | .hbm, ⟨7, _⟩ => ⟨S8x64x224x224, .f32⟩
  | .hbm, ⟨8, _⟩ => ⟨S8x64x224x224, .f32⟩
  | .hbm, ⟨9, _⟩ => ⟨S8x64x224x224, .f32⟩
  | .hbm, ⟨10, _⟩ => ⟨S8x64x224x224, .f32⟩
  | .hbm, ⟨11, _⟩ => ⟨S8x64x224x224, .f32⟩
  | .hbm, ⟨12, _⟩ => ⟨S8x64x224x224, .f32⟩
  | .hbm, ⟨13, _⟩ => ⟨S8x64x224x224, .f32⟩
  | .hbm, ⟨14, _⟩ => ⟨S8x64x1x224x224, .f32⟩
  | .hbm, ⟨15, _⟩ => ⟨S8x64x1x224x224, .f32⟩
  | .hbm, ⟨16, _⟩ => ⟨S8x64x1x224x224, .f32⟩
  | .hbm, ⟨17, _⟩ => ⟨S8x64x1x224x224, .f32⟩
  | .hbm, ⟨18, _⟩ => ⟨S8x64x1x224x224, .f32⟩
  | .hbm, ⟨19, _⟩ => ⟨S8x64x1x224x224, .f32⟩
  | .hbm, ⟨20, _⟩ => ⟨S8x64x1x224x224, .f32⟩
  | .hbm, ⟨21, _⟩ => ⟨S8x64x1x224x224, .f32⟩
  | .hbm, ⟨22, _⟩ => ⟨S8x64x1x224x224, .f32⟩
  | .hbm, ⟨23, _⟩ => ⟨S8x64x9x224x224, .f32⟩
  | .hbm, ⟨24, _⟩ => ⟨S8x64x9x224x224, .f32⟩
  | .hbm, ⟨25, _⟩ => ⟨S8x64x9x224x224, .f32⟩
  | .hbm, ⟨26, _⟩ => ⟨S_, .f32⟩
  | .hbm, ⟨27, _⟩ => ⟨S8x64x224x224, .f32⟩
  | _, _ => ⟨S8x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩

abbrev nD : Nat := 1
abbrev τ : Topo := Topo.v7x

variable {F : FTy → Type} [FloatOps F]

class Facts₀ : Prop where
  pads_S8x64x224x224_S8x64x226x226_000_000_110_110 : S8x64x224x224.Pads (![0, 0, 1, 1] : Fin 4 → Nat) ![0, 0, 1, 1] ![0, 0, 0, 0] S8x64x226x226
  h_S_ : 0 < S_.numel
  slices_S8x64x226x226_S8x64x224x224_0_0_0_0 : S8x64x226x226.Slices ![0, 0, 0, 0] S8x64x224x224
  slices_S8x64x226x226_S8x64x224x224_0_0_0_1 : S8x64x226x226.Slices ![0, 0, 0, 1] S8x64x224x224
  slices_S8x64x226x226_S8x64x224x224_0_0_0_2 : S8x64x226x226.Slices ![0, 0, 0, 2] S8x64x224x224
  slices_S8x64x226x226_S8x64x224x224_0_0_1_0 : S8x64x226x226.Slices ![0, 0, 1, 0] S8x64x224x224
  slices_S8x64x226x226_S8x64x224x224_0_0_1_1 : S8x64x226x226.Slices ![0, 0, 1, 1] S8x64x224x224
  slices_S8x64x226x226_S8x64x224x224_0_0_1_2 : S8x64x226x226.Slices ![0, 0, 1, 2] S8x64x224x224
  slices_S8x64x226x226_S8x64x224x224_0_0_2_0 : S8x64x226x226.Slices ![0, 0, 2, 0] S8x64x224x224
  slices_S8x64x226x226_S8x64x224x224_0_0_2_1 : S8x64x226x226.Slices ![0, 0, 2, 1] S8x64x224x224
  slices_S8x64x226x226_S8x64x224x224_0_0_2_2 : S8x64x226x226.Slices ![0, 0, 2, 2] S8x64x224x224
  bcast_S8x64x224x224_S8x64x1x224x224_0_1_3_4 : S8x64x224x224.BroadcastsInDim S8x64x1x224x224 (![0, 1, 3, 4] : Fin 4 → Fin S8x64x1x224x224.rank)
  concatenates_S8x64x1x224x224_S8x64x1x224x224_S8x64x1x224x224_S8x64x1x224x224_S8x64x1x224x224_S8x64x1x224x224_S8x64x1x224x224_S8x64x1x224x224_S8x64x1x224x224_S8x64x9x224x224_d2 : Shape.Concatenates [S8x64x1x224x224, S8x64x1x224x224, S8x64x1x224x224, S8x64x1x224x224, S8x64x1x224x224, S8x64x1x224x224, S8x64x1x224x224, S8x64x1x224x224, S8x64x1x224x224] S8x64x9x224x224 2
  bcast_S1x64x9x1x1_S8x64x9x224x224_0_1_2_3_4 : S1x64x9x1x1.BroadcastsInDim S8x64x9x224x224 (![0, 1, 2, 3, 4] : Fin 5 → Fin S8x64x9x224x224.rank)
  reducesTo_S8x64x9x224x224_S8x64x224x224_d2 : S8x64x9x224x224.ReducesTo [2] S8x64x224x224

variable [Facts₀]

class Facts : Prop extends Facts₀ where

variable [Facts]
-- ==== Proof.Dilation.lean ====
/-
  Grey-scale dilation by an additive 3×3 structuring element, as one function of the zero-padded image and the
  per-channel offsets.  Write `P` for the padded image (a one-pixel border on each side of every 224 × 224 plane,
  so 226 × 226) and `k` for the offsets (nine per channel).  The value at pixel (b, c, h, w) is the largest, over
  the nine taps n = 3·dh + dw with dh, dw ∈ {0, 1, 2}, of

      P[b, c, h + dh, w + dw] + k[0, c, n, 0, 0].

  Both programs compute exactly these nine sums; they differ only in how they take the largest: one joins them two
  at a time from the left, the other folds `max` over the nine from −∞.  On the extended reals −∞ is the bottom
  element, so that fold is the least upper bound of the nine values, and so is the left-to-right join: the two are
  equal by antisymmetry, each being below every upper bound of the nine and above each of them.  No finiteness of
  the inputs is used: the sums are the same sums on both sides, and `max` is a lattice operation on all of the
  extended reals.
-/
import Idealize.ShloMosaic.Lib.ValueIdx
import Idealize.ShloMosaic.PureOps.Ideal.Laws
import Mathlib.Data.Finset.Fold

noncomputable section

namespace Cert.Dilation

open Idealize.ShloMosaic Idealize.ShloMosaic.ValueIdx

/-- The image: batch 8, 64 channels, 224 × 224 pixels. -/
abbrev Img : Shape := ⟨4, ![8, 64, 224, 224]⟩
/-- The image with a one-pixel border around every plane. -/
abbrev Padded : Shape := ⟨4, ![8, 64, 226, 226]⟩
/-- The structuring element: nine offsets per channel. -/
abbrev Offsets : Shape := ⟨5, ![1, 64, 9, 1, 1]⟩

/-- Where tap `n` of pixel `i` reads the padded image: `n / 3` rows down and `n % 3` columns right of the
    pixel's own position in the padded plane's top-left alignment. -/
def tapPixel (i : Img.Idx) (n : Fin 9) : Padded.Idx :=
  ix4 (n0 := 8) (n1 := 64) (n2 := 226) (n3 := 226) (i 0) (i 1)
    ⟨n.val / 3 + (i 2).val, by have h : (i 2).val < 224 := (i 2).isLt; have hn := n.isLt; omega⟩
    ⟨n.val % 3 + (i 3).val, by have h : (i 3).val < 224 := (i 3).isLt; omega⟩

/-- Where tap `n` of pixel `i` reads the offsets: the pixel's channel, entry `n`. -/
def tapOffset (i : Img.Idx) (n : Fin 9) : Offsets.Idx :=
  ix5 (n0 := 1) (n1 := 64) (n2 := 9) (n3 := 1) (n4 := 1) ⟨0, Nat.one_pos⟩ (i 1) n ⟨0, Nat.one_pos⟩ ⟨0, Nat.one_pos⟩

/-- Tap `n` at pixel `i`: the shifted padded pixel plus the channel's `n`-th offset. -/
def tap (P : Padded.Idx → EReal) (k : Offsets.Idx → EReal) (i : Img.Idx) (n : Fin 9) : EReal :=
  P (tapPixel i n) + k (tapOffset i n)

/-- Nine values joined by `max` two at a time, from the left. -/
def join9 (g : Fin 9 → EReal) : EReal :=
  max (max (max (max (max (max (max (max (g 0) (g 1)) (g 2)) (g 3)) (g 4)) (g 5)) (g 6)) (g 7)) (g 8)

/-- The dilated image. -/
def dilate (P : Padded.Idx → EReal) (k : Offsets.Idx → EReal) : Img.Idx → EReal :=
  fun i => join9 (tap P k i)

/-- Each of the nine values is below their join. -/
theorem le_join9 (g : Fin 9 → EReal) (n : Fin 9) : g n ≤ join9 g := by
  unfold join9
  simp only [le_max_iff]
  match n with
  | ⟨0, _⟩ => exact Or.inl (Or.inl (Or.inl (Or.inl (Or.inl (Or.inl (Or.inl (Or.inl (le_refl _))))))))
  | ⟨1, _⟩ => exact Or.inl (Or.inl (Or.inl (Or.inl (Or.inl (Or.inl (Or.inl (Or.inr (le_refl _))))))))
  | ⟨2, _⟩ => exact Or.inl (Or.inl (Or.inl (Or.inl (Or.inl (Or.inl (Or.inr (le_refl _)))))))
  | ⟨3, _⟩ => exact Or.inl (Or.inl (Or.inl (Or.inl (Or.inl (Or.inr (le_refl _))))))
  | ⟨4, _⟩ => exact Or.inl (Or.inl (Or.inl (Or.inl (Or.inr (le_refl _)))))
  | ⟨5, _⟩ => exact Or.inl (Or.inl (Or.inl (Or.inr (le_refl _))))
  | ⟨6, _⟩ => exact Or.inl (Or.inl (Or.inr (le_refl _)))
  | ⟨7, _⟩ => exact Or.inl (Or.inr (le_refl _))
  | ⟨8, _⟩ => exact Or.inr (le_refl _)

/-- A bound on all nine bounds their join. -/
theorem join9_le (g : Fin 9 → EReal) (c : EReal) (h : ∀ n, g n ≤ c) : join9 g ≤ c := by
  unfold join9
  exact max_le (max_le (max_le (max_le (max_le (max_le (max_le (max_le (h 0) (h 1)) (h 2)) (h 3)) (h 4)) (h 5)) (h 6)) (h 7)) (h 8)

/-- Folding `max` over nine values from the bottom element gives their join: both are the least upper bound. -/
theorem fold_max_bot_nine (g : Fin 9 → EReal) :
    (Finset.univ : Finset (Fin 9)).fold max (⊥ : EReal) g = join9 g := by
  apply le_antisymm
  · exact (Finset.fold_max_le _).2 ⟨bot_le, fun n _ => le_join9 g n⟩
  · exact join9_le g _ fun n => (Finset.le_fold_max _).2 (Or.inr ⟨n, Finset.mem_univ n, le_refl _⟩)

end Cert.Dilation

end
-- ==== Proof.Blocks.lean ====
/-
  The kernel's result array is the dilation of the padded image it is launched on.

  The grid has one point per (batch entry, group of sixteen channels).  At a point the body holds the point's
  sixteen padded planes (226 × 226 each) and the nine offsets of each of its sixteen channels, and writes sixteen
  224 × 224 planes: nine loads of the padded planes, shifted by (n / 3, n % 3), each with the channel's n-th offset
  added, joined by `max` from the left.

    * In the block: the value at block pixel y is the join of the nine block taps (`block_apply`), read off the
      body's result as a function of its loads.
    * From block to array: block pixel y of point t is array pixel (t's batch entry, 16 · t's group + y's channel,
      y's row, y's column), and the input blocks sit at the same batch entry and channel group, so a block tap is the
      array's tap at that pixel (`flushed_eq`).
    * The blocks tile the array — every pixel lies in the block of its batch entry and channel group (`cover`) — so
      the array after the run is the dilation everywhere (`final`).
    * The padded image the kernel is launched on is the zero padding of the first argument, computed by the
      program's own operations before the launch (`entry_padded`).
-/
import proofs.«112051_j78168404787232_1_alg».proof.Proof.Gen.KernelIdeal.Value
import proofs.«112051_j78168404787232_1_alg».proof.Proof.Dilation
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Dilation
open Idealize.ShloMosaic.Pipeline (Dat)

/-! ## Inside one block -/

/-- Where tap `n` of block pixel `y` reads the point's padded planes. -/
def blkPixel (y : S1x16x224x224.Idx) (n : Fin 9) : S1x16x226x226.Idx :=
  ix4 (n0 := 1) (n1 := 16) (n2 := 226) (n3 := 226) ⟨0, Nat.one_pos⟩ (y 1)
    ⟨n.val / 3 + (y 2).val, by have h : (y 2).val < 224 := (y 2).isLt; have hn := n.isLt; omega⟩
    ⟨n.val % 3 + (y 3).val, by have h : (y 3).val < 224 := (y 3).isLt; omega⟩

/-- Where tap `n` of block pixel `y` reads the point's offsets. -/
def blkOffset (y : S1x16x224x224.Idx) (n : Fin 9) : S1x16x9x1x1.Idx :=
  ix5 (n0 := 1) (n1 := 16) (n2 := 9) (n3 := 1) (n4 := 1) ⟨0, Nat.one_pos⟩ (y 1) n ⟨0, Nat.one_pos⟩ ⟨0, Nat.one_pos⟩

/-- Tap `n` at block pixel `y`. -/
def blkTap (x0 : Vec Ideal S1x16x226x226 .f32) (x1 : Vec Ideal S1x16x9x1x1 .f32) (y : S1x16x224x224.Idx) (n : Fin 9) : EReal :=
  x0 (blkPixel y n) + x1 (blkOffset y n)

/-- A load of a 224 × 224 window of the padded planes starting at `off`, read at `z`, is the planes at `off + z`. -/
theorem ld_pixel (x0 : Vec Ideal S1x16x226x226 .f32) (off : Fin 4 → Nat)
    (inb : ∀ a, off a + S1x16x224x224.size a ≤ S1x16x226x226.size a) (z : S1x16x224x224.Idx) (p : S1x16x226x226.Idx)
    (h : ∀ a, (p a).val = off a + (z a).val) :
    View.ld x0 (Rect.unit (s := S1x16x226x226) off S1x16x224x224.size inb) z = x0 p :=
  congrArg x0 (funext fun a => Fin.ext (by
    show off a + 1 * (z a).val = (p a).val
    rw [h a, Nat.one_mul]))

/-- A load of one offset per channel starting at `off`, read at `z`, is the offsets at `off + z`. -/
theorem ld_offset (x1 : Vec Ideal S1x16x9x1x1 .f32) (off : Fin 5 → Nat)
    (inb : ∀ a, off a + S1x16x1x1x1.size a ≤ S1x16x9x1x1.size a) (z : S1x16x1x1x1.Idx) (p : S1x16x9x1x1.Idx)
    (h : ∀ a, (p a).val = off a + (z a).val) :
    View.ld x1 (Rect.unit (s := S1x16x9x1x1) off S1x16x1x1x1.size inb) z = x1 p :=
  congrArg x1 (funext fun a => Fin.ext (by
    show off a + 1 * (z a).val = (p a).val
    rw [h a, Nat.one_mul]))

/-- WHAT THE BODY LEAVES at block pixel `y`: the join of the nine block taps. -/
theorem block_apply (x0 : Vec Ideal S1x16x226x226 .f32) (x1 : Vec Ideal S1x16x9x1x1 .f32) (y : S1x16x224x224.Idx) :
    out0_2 x0 x1 y = join9 (blkTap x0 x1 y) := by
  unfold out0_2
  refine (Value.canon2_eq _ _ _ _ _ _ _ _ _ _ _ _ _ _ _ _ _ _ y).trans ?_
  have p0 : View.ld x0 r0_0 (Value.ix2_0 y) = x0 (blkPixel y 0) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have p1 : View.ld x0 r0_2 (Value.ix2_2 y) = x0 (blkPixel y 1) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have p2 : View.ld x0 r0_4 (Value.ix2_4 y) = x0 (blkPixel y 2) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have p3 : View.ld x0 r0_6 (Value.ix2_6 y) = x0 (blkPixel y 3) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have p4 : View.ld x0 r0_8 (Value.ix2_8 y) = x0 (blkPixel y 4) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have p5 : View.ld x0 r0_10 (Value.ix2_10 y) = x0 (blkPixel y 5) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have p6 : View.ld x0 r0_12 (Value.ix2_12 y) = x0 (blkPixel y 6) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have p7 : View.ld x0 r0_14 (Value.ix2_14 y) = x0 (blkPixel y 7) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have p8 : View.ld x0 r0_16 (Value.ix2_16 y) = x0 (blkPixel y 8) :=
    ld_pixel x0 _ _ _ _ (fun a => by
      match a with
      | ⟨0, _⟩ => rfl
      | ⟨1, _⟩ => show (y 1).val = 0 + (y 1).val; exact (Nat.zero_add _).symm
      | ⟨2, _⟩ => rfl
      | ⟨3, _⟩ => rfl)
  have o0 : View.ld x1 r0_1 (Value.ix2_1 y) = x1 (blkOffset y 0) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  have o1 : View.ld x1 r0_3 (Value.ix2_3 y) = x1 (blkOffset y 1) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  have o2 : View.ld x1 r0_5 (Value.ix2_5 y) = x1 (blkOffset y 2) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  have o3 : View.ld x1 r0_7 (Value.ix2_7 y) = x1 (blkOffset y 3) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  have o4 : View.ld x1 r0_9 (Value.ix2_9 y) = x1 (blkOffset y 4) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  have o5 : View.ld x1 r0_11 (Value.ix2_11 y) = x1 (blkOffset y 5) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  have o6 : View.ld x1 r0_13 (Value.ix2_13 y) = x1 (blkOffset y 6) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  have o7 : View.ld x1 r0_15 (Value.ix2_15 y) = x1 (blkOffset y 7) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  have o8 : View.ld x1 r0_17 (Value.ix2_17 y) = x1 (blkOffset y 8) :=
    ld_offset x1 _ _ _ _ (fun a => by
      match a with
      | ⟨0, _⟩ => rfl
      | ⟨1, _⟩ => show (y 1).val = 0 + (y 1).val; exact (Nat.zero_add _).symm
      | ⟨2, _⟩ => rfl
      | ⟨3, _⟩ => rfl
      | ⟨4, _⟩ => rfl)
  unfold join9 blkTap
  rw [← p0, ← o0, ← p1, ← o1, ← p2, ← o2, ← p3, ← o3, ← p4, ← o4, ← p5, ← o5, ← p6, ← o6, ← p7, ← o7, ← p8, ← o8]
  rfl

/-! ## From the blocks to the array -/

variable (m : (ℓ : Loc nD τ sig) → Buf (Elt Ideal) ℓ) (ρ : Dev nD → PrngReg)

/-- The printed index maps over the grid: the padded planes and the output move together over batch entries and
    channel groups and never along rows or columns; the offsets move with the channel group only. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = 0 ∧ win0_1.index t (1 : Fin 5) = win0_2.index t (1 : Fin 4)
    ∧ win0_1.index t (2 : Fin 5) = 0 ∧ win0_1.index t (3 : Fin 5) = 0 ∧ win0_1.index t (4 : Fin 5) = 0
    ∧ win0_2.index t (2 : Fin 4) = 0 ∧ win0_2.index t (3 : Fin 4) = 0
    ∧ win0_2.index t (0 : Fin 4) ≤ 7 ∧ win0_2.index t (1 : Fin 4) ≤ 3 :=
  (by decide +kernel : ∀ t : Fin grid0.N, _)

/-- Every (batch entry, channel group) is some point's. -/
theorem idx_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- WHAT POINT `t` WRITES BACK is block `t` of the dilation of the arrays the region is entered with. -/
theorem flushed_eq (c : Dev nD) (t : Fin cfg0.N) :
    (dats m 0 c).flushed 2 t
      = ((cfg0.win 2).blk t).view.read (Elt Ideal) (dilate (V m c main_v0) (V m c main_arg1)) := by
  rw [Value.flushed2]
  funext j
  show out0_2 (iblk m c 0 t) (iblk m c 1 t) j
    = dilate (V m c main_v0) (V m c main_arg1) (((cfg0.win 2).blk t).view.emb j)
  refine (block_apply (iblk m c 0 t) (iblk m c 1 t) j).trans ?_
  unfold dilate
  refine congrArg join9 (funext fun n => ?_)
  obtain ⟨e0, e1, e2, e3, f0, f1, f2, f3, f4, g2, g3, -, -⟩ := idx_facts t
  have hj0 : (j 0).val < 1 := (j 0).isLt
  have h0 : ((cfg0.win 0).blk t).view.emb (blkPixel j n) = tapPixel (((cfg0.win 2).blk t).view.emb j) n := by
    funext a; apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 16 + 1 * (j 1).val = win0_2.index t (1 : Fin 4) * 16 + 1 * (j 1).val; omega
    | ⟨2, _⟩ => show win0_0.index t (2 : Fin 4) * 226 + 1 * (n.val / 3 + (j 2).val) = n.val / 3 + (win0_2.index t (2 : Fin 4) * 224 + 1 * (j 2).val); omega
    | ⟨3, _⟩ => show win0_0.index t (3 : Fin 4) * 226 + 1 * (n.val % 3 + (j 3).val) = n.val % 3 + (win0_2.index t (3 : Fin 4) * 224 + 1 * (j 3).val); omega
  have h1 : ((cfg0.win 1).blk t).view.emb (blkOffset j n) = tapOffset (((cfg0.win 2).blk t).view.emb j) n := by
    funext a; apply Fin.ext
    match a with
    | ⟨0, _⟩ => show win0_1.index t (0 : Fin 5) * 1 + 1 * 0 = 0; omega
    | ⟨1, _⟩ => show win0_1.index t (1 : Fin 5) * 16 + 1 * (j 1).val = win0_2.index t (1 : Fin 4) * 16 + 1 * (j 1).val; omega
    | ⟨2, _⟩ => show win0_1.index t (2 : Fin 5) * 9 + 1 * n.val = n.val; omega
    | ⟨3, _⟩ => show win0_1.index t (3 : Fin 5) * 1 + 1 * 0 = 0; omega
    | ⟨4, _⟩ => show win0_1.index t (4 : Fin 5) * 1 + 1 * 0 = 0; omega
  have hp : iblk m c 0 t (blkPixel j n) = V m c main_v0 (tapPixel (((cfg0.win 2).blk t).view.emb j) n) := by
    show V m c main_v0 (((cfg0.win 0).blk t).view.emb (blkPixel j n)) = _
    rw [h0]
  have ho : iblk m c 1 t (blkOffset j n) = V m c main_arg1 (tapOffset (((cfg0.win 2).blk t).view.emb j) n) := by
    show V m c main_arg1 (((cfg0.win 1).blk t).view.emb (blkOffset j n)) = _
    rw [h1]
  unfold blkTap tap
  exact congrArg₂ (fun a b : EReal => a + b) hp ho

/-- A pixel of the array is in point `t`'s block iff each coordinate is in the block's range on its axis. -/
theorem mem_blk (t : Fin cfg0.N) (i : S8x64x224x224.Idx) :
    i ∈ ((cfg0.win 2).blk t).view.set ↔ ∀ a : Fin 4, win0_2.index t a * S1x16x224x224.size a ≤ (i a).val
      ∧ (i a).val < win0_2.index t a * S1x16x224x224.size a + S1x16x224x224.size a := by
  show i ∈ ((View.whole main_v1).slice (win0_2.rect t)).set ↔ _
  rw [View.set_slice_whole, Rect.mem_set_unit]
  exact Iff.rfl

/-- Every pixel is in the block of its batch entry and channel group. -/
theorem cover (i : S8x64x224x224.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 224 := (i 2).isLt
  have hi3 : (i 3).val < 224 := (i 3).isLt
  obtain ⟨t, ht⟩ := idx_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 224 ≤ (i 2).val ∧ (i 2).val < win0_2.index t (2 : Fin 4) * 224 + 224; omega
  | ⟨3, _⟩ => show win0_2.index t (3 : Fin 4) * 224 ≤ (i 3).val ∧ (i 3).val < win0_2.index t (3 : Fin 4) * 224 + 224; omega

/-- THE ARRAY after the run: the dilation of the arrays the region is entered with. -/
theorem final (c : Dev nD) : (dats m 0 c).arrAt 2 cfg0.N = dilate (V m c main_v0) (V m c main_arg1) :=
  (dats m 0 c).arrAt_eq_of_cover 2 _ (fun t _ => flushed_eq m c t) cover

/-! ## The padded image, and the run -/

/-- The zero padding of an image, as the program's operations before the launch compute it: the zero is the integer
    0 converted to a float. -/
abbrev zeroPad (x : (⟨S8x64x224x224, .f32⟩ : BufTy).Contents (Elt Ideal)) : (⟨S8x64x226x226, .f32⟩ : BufTy).Contents (Elt Ideal) :=
  pad S8x64x226x226 ![0, 0, 1, 1] ![0, 0, 1, 1] ![0, 0, 0, 0] x (sitofp (F := Ideal) .f32 (constantI S_ 32 0#32))
    pads_S8x64x224x224_S8x64x226x226_000_000_110_110 h_S_

/-- The region is entered with the padded planes at the zero padding of the first argument. -/
theorem entry_padded (c : Dev nD) :
    (V m c main_v0 : S8x64x226x226.Idx → EReal) = zeroPad (m ((c : Thread nD τ).loc main_arg0)) := by
  dsimp only [Gen.V]
  simp only [Gen.hostOps0, Gen.hostOps0_1, List.flatten_cons, List.flatten_nil, List.append_nil, List.cons_append,
    List.nil_append]
  after_results
  rfl

/-- THE RUN: the result array ends at the dilation of the first argument's zero padding by the second argument; the
    arguments are unchanged. -/
theorem run : θ_run defs (onTc (τ := τ) (main (F := Ideal))) ⟨m, fun _ => 0, ρ⟩ fun r => ∀ c : Dev nD,
      r.2.mem ((c : Thread nD τ).loc main_v1)
        = dilate (zeroPad (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans
      (congrArg₂ dilate (entry_padded m c) (V_main_arg1 m c))), (h c).2⟩)
    (Value.run_blocks m ρ)

end Cert.KernelIdeal.Blocks

end
-- ==== Proof.Stacked.lean ====
/-
  The reference's result is the dilation of its padded image.

  The reference cuts the nine 224 × 224 windows out of the padded image (window n starts n / 3 rows down and
  n % 3 columns right), lays them side by side along a new axis of extent nine, adds the offsets broadcast over
  batch and pixels, and takes the largest along the new axis, starting from −∞.  Read at pixel i:

    * the reduction along one axis is a fold of `max` over that axis's nine coordinates, from −∞, which is the
      bottom of the extended reals;
    * coordinate n of the stacked array at pixel i is window n at pixel i (a concatenation of slabs of extent one
      picks the slab its coordinate names), that is, the padded image at the tap's pixel;
    * the broadcast offsets at (i, n) are the offsets at the pixel's channel, entry n.

  So the folded values are the nine taps of `Cert.Dilation`, and their fold from the bottom element is their join.
-/
import proofs.«112051_j78168404787232_1_alg».proof.Proof.Gen.ReferenceIdeal.Read
import proofs.«112051_j78168404787232_1_alg».proof.Proof.Dilation
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Dilation

/-- The word of −∞ is the bottom of the extended reals. -/
theorem negInf_eq_bot : Ideal.ofBits .f32 0xFF800000#32 = (⊥ : EReal) := by
  simp [Ideal.ofBits, Ideal.ieee]

/-- Dropping the tap axis of the stacked shape leaves the image's shape. -/
theorem reduces_taps : S8x64x9x224x224.Reduces [2] S8x64x224x224 := by decide

/-- Pixel `i` with tap coordinate `n` put back on the stacked array's third axis. -/
theorem lift_eq (i : S8x64x224x224.Idx) (n : Fin 9) :
    reduces_taps.lift i n = ix5 (n0 := 8) (n1 := 64) (n2 := 9) (n3 := 224) (n4 := 224) (i 0) (i 1) n (i 2) (i 3) := by
  funext c; apply Fin.ext
  fin_cases c <;> rfl

/-- Nine slabs of extent one along the third axis, laid side by side: coordinate `j 2` picks slab `j 2`, read at
    `j`'s other coordinates. -/
theorem stack_apply (u : Fin 9 → (S8x64x1x224x224.Idx → EReal))
    (h : Shape.Concatenates [S8x64x1x224x224, S8x64x1x224x224, S8x64x1x224x224, S8x64x1x224x224, S8x64x1x224x224, S8x64x1x224x224, S8x64x1x224x224, S8x64x1x224x224, S8x64x1x224x224] S8x64x9x224x224 2)
    (j : S8x64x9x224x224.Idx) :
    concatenate S8x64x9x224x224 2 [⟨S8x64x1x224x224, u 0⟩, ⟨S8x64x1x224x224, u 1⟩, ⟨S8x64x1x224x224, u 2⟩, ⟨S8x64x1x224x224, u 3⟩, ⟨S8x64x1x224x224, u 4⟩, ⟨S8x64x1x224x224, u 5⟩, ⟨S8x64x1x224x224, u 6⟩, ⟨S8x64x1x224x224, u 7⟩, ⟨S8x64x1x224x224, u 8⟩] h j
      = u (j 2) (ix5 (n0 := 8) (n1 := 64) (n2 := 1) (n3 := 224) (n4 := 224) (j 0) (j 1) ⟨0, Nat.one_pos⟩ (j 3) (j 4)) :=
  concatenate_ofFn_unit_apply (t := S8x64x9x224x224) (s₁ := S8x64x1x224x224) 2 u h rfl rfl j (j 2) rfl _
    (fun b hb => by
      match b with
      | ⟨0, _⟩ => rfl
      | ⟨1, _⟩ => rfl
      | ⟨2, _⟩ => exact absurd rfl hb
      | ⟨3, _⟩ => rfl
      | ⟨4, _⟩ => rfl)

/-- Window `n` of the padded image as a slab of extent one along the tap axis. -/
def slab (x0 : (⟨S8x64x224x224, .f32⟩ : BufTy).Contents (Elt Ideal)) : Fin 9 → (S8x64x1x224x224.Idx → EReal)
  | ⟨0, _⟩ => val_main_v10 (F := Ideal) x0
  | ⟨1, _⟩ => val_main_v11 (F := Ideal) x0
  | ⟨2, _⟩ => val_main_v12 (F := Ideal) x0
  | ⟨3, _⟩ => val_main_v13 (F := Ideal) x0
  | ⟨4, _⟩ => val_main_v14 (F := Ideal) x0
  | ⟨5, _⟩ => val_main_v15 (F := Ideal) x0
  | ⟨6, _⟩ => val_main_v16 (F := Ideal) x0
  | ⟨7, _⟩ => val_main_v17 (F := Ideal) x0
  | ⟨8, _⟩ => val_main_v18 (F := Ideal) x0

/-- Two indices of the padded image with the same four coordinates are one index. -/
theorem padded_ext {p q : S8x64x226x226.Idx} (h0 : (p 0).val = (q 0).val) (h1 : (p 1).val = (q 1).val)
    (h2 : (p 2).val = (q 2).val) (h3 : (p 3).val = (q 3).val) : p = q :=
  funext fun a => Fin.ext (match a with | ⟨0, _⟩ => h0 | ⟨1, _⟩ => h1 | ⟨2, _⟩ => h2 | ⟨3, _⟩ => h3)

/-- Slab `n` at pixel `i` is the padded image at tap `n`'s pixel: the slab is window `n` with a unit axis put in,
    and window `n` starts `n / 3` rows and `n % 3` columns into the padded plane. -/
theorem slab_apply (x0 : (⟨S8x64x224x224, .f32⟩ : BufTy).Contents (Elt Ideal)) (i : S8x64x224x224.Idx) (n : Fin 9) :
    slab x0 n (ix5 (n0 := 8) (n1 := 64) (n2 := 1) (n3 := 224) (n4 := 224) (i 0) (i 1) ⟨0, Nat.one_pos⟩ (i 2) (i 3))
      = val_main_v0 (F := Ideal) x0 (tapPixel i n) := by
  fin_cases n
  · refine (val_main_v10_apply x0 _).trans ((val_main_v1_apply x0 _).trans (congrArg _ ?_))
    exact padded_ext (by rfl) (by rfl) (by show (i 2).val = 0 + (i 2).val; exact (Nat.zero_add _).symm) (by show (i 3).val = 0 + (i 3).val; exact (Nat.zero_add _).symm)
  · refine (val_main_v11_apply x0 _).trans ((val_main_v2_apply x0 _).trans (congrArg _ ?_))
    exact padded_ext (by rfl) (by rfl) (by show (i 2).val = 0 + (i 2).val; exact (Nat.zero_add _).symm) (by rfl)
  · refine (val_main_v12_apply x0 _).trans ((val_main_v3_apply x0 _).trans (congrArg _ ?_))
    exact padded_ext (by rfl) (by rfl) (by show (i 2).val = 0 + (i 2).val; exact (Nat.zero_add _).symm) (by rfl)
  · refine (val_main_v13_apply x0 _).trans ((val_main_v4_apply x0 _).trans (congrArg _ ?_))
    exact padded_ext (by rfl) (by rfl) (by rfl) (by show (i 3).val = 0 + (i 3).val; exact (Nat.zero_add _).symm)
  · refine (val_main_v14_apply x0 _).trans ((val_main_v5_apply x0 _).trans (congrArg _ ?_))
    exact padded_ext (by rfl) (by rfl) (by rfl) (by rfl)
  · refine (val_main_v15_apply x0 _).trans ((val_main_v6_apply x0 _).trans (congrArg _ ?_))
    exact padded_ext (by rfl) (by rfl) (by rfl) (by rfl)
  · refine (val_main_v16_apply x0 _).trans ((val_main_v7_apply x0 _).trans (congrArg _ ?_))
    exact padded_ext (by rfl) (by rfl) (by rfl) (by show (i 3).val = 0 + (i 3).val; exact (Nat.zero_add _).symm)
  · refine (val_main_v17_apply x0 _).trans ((val_main_v8_apply x0 _).trans (congrArg _ ?_))
    exact padded_ext (by rfl) (by rfl) (by rfl) (by rfl)
  · refine (val_main_v18_apply x0 _).trans ((val_main_v9_apply x0 _).trans (congrArg _ ?_))
    exact padded_ext (by rfl) (by rfl) (by rfl) (by rfl)

/-- The stacked array at (pixel `i`, tap `n`) is the padded image at the tap's pixel. -/
theorem stacked_apply (x0 : (⟨S8x64x224x224, .f32⟩ : BufTy).Contents (Elt Ideal)) (i : S8x64x224x224.Idx) (n : Fin 9) :
    val_main_v19 (F := Ideal) x0 (ix5 (n0 := 8) (n1 := 64) (n2 := 9) (n3 := 224) (n4 := 224) (i 0) (i 1) n (i 2) (i 3))
      = val_main_v0 (F := Ideal) x0 (tapPixel i n) :=
  (stack_apply (slab x0) _ _).trans (slab_apply x0 i n)

/-- The broadcast offsets at (pixel `i`, tap `n`) are the offsets at the pixel's channel, entry `n`. -/
theorem offsets_apply (x1 : (⟨S1x64x9x1x1, .f32⟩ : BufTy).Contents (Elt Ideal)) (i : S8x64x224x224.Idx) (n : Fin 9) :
    val_main_v20 (F := Ideal) x1 (ix5 (n0 := 8) (n1 := 64) (n2 := 9) (n3 := 224) (n4 := 224) (i 0) (i 1) n (i 2) (i 3))
      = x1 (tapOffset i n) :=
  (val_main_v20_apply x1 _).trans (congrArg x1 (funext fun a => by
    match a with
    | ⟨0, _⟩ => rfl
    | ⟨1, _⟩ => rfl
    | ⟨2, _⟩ => rfl
    | ⟨3, _⟩ => rfl
    | ⟨4, _⟩ => rfl))

/-- THE REFERENCE'S RESULT: the dilation of its padded image by the offsets. -/
theorem result_eq_dilate (x0 : (⟨S8x64x224x224, .f32⟩ : BufTy).Contents (Elt Ideal))
    (x1 : (⟨S1x64x9x1x1, .f32⟩ : BufTy).Contents (Elt Ideal)) :
    val_main_v22 (F := Ideal) x0 x1 = dilate (val_main_v0 (F := Ideal) x0) x1 := by
  funext i
  unfold val_main_v22
  rw [Host.reduce_eq_fold_single FloatOps.maximumf _ _ _ reduces_taps _ i]
  have htap : ∀ n : Fin 9, val_main_v21 (F := Ideal) x0 x1 (reduces_taps.lift i n) = tap (val_main_v0 (F := Ideal) x0) x1 i n :=
    fun n => by
      rw [lift_eq i n, val_main_v21_apply, stacked_apply, offsets_apply]
      rfl
  have htaps : (val_main_v21 (F := Ideal) x0 x1 ∘ reduces_taps.lift i) = tap (val_main_v0 (F := Ideal) x0) x1 i :=
    funext htap
  refine Eq.trans ?_ (fold_max_bot_nine (tap (val_main_v0 (F := Ideal) x0) x1 i))
  refine Eq.trans ?_ (congrArg (fun f => Finset.fold max (⊥ : EReal) f (Finset.univ : Finset (Fin 9))) htaps)
  exact congrArg (fun b => Finset.fold max b (val_main_v21 (F := Ideal) x0 x1 ∘ reduces_taps.lift i)
    (Finset.univ : Finset (Fin 9))) negInf_eq_bot

end Cert.ReferenceIdeal.RefValue

end
-- ==== Proof.lean ====
/-
  Dilation of an image by an additive 3×3 structuring element: the tiled kernel against the stack-and-reduce
  reference, over the extended reals.

  Both programs zero-pad every 224 × 224 plane of the image by one pixel on each side and then compute, at each
  pixel (b, c, h, w), the largest over the nine taps n = 3·dh + dw of

      padded[b, c, h + dh, w + dw] + offset[0, c, n, 0, 0]

  (`Cert.Dilation.dilate`).  The kernel walks a grid of (batch entry, group of sixteen channels), loads the nine
  shifted windows of the point's padded planes, adds the channel's offsets and joins the nine sums by `max` from
  the left; its result array is the dilation of the padded image block by block, and the blocks tile the array
  (`Cert.KernelIdeal.Blocks`).  The reference stacks the nine windows along a new axis, adds the broadcast offsets
  and reduces that axis with `max` from −∞, which is a fold of `max` from the bottom of the extended reals
  (`Cert.ReferenceIdeal.RefValue`).  A fold of `max` from the bottom element over nine values and their
  left-to-right join are both the least upper bound of the nine, so the two results agree at every pixel.  The
  padding is the same operation on the same argument in both programs, so it is never opened.  Nothing here needs
  the inputs to be finite: the nine sums are the same sums on both sides and `max` is a lattice operation on
  all of the extended reals.

  The three programs run and leave their arguments unchanged: the kernel and its idealization by their generated
  frames, the reference by its generated run.  The idealization rewrote nothing, so there is nothing to preserve.
-/
import proofs.«112051_j78168404787232_1_alg».proof.Defs
import proofs.«112051_j78168404787232_1_alg».proof.Proof.Gen.Kernel
import proofs.«112051_j78168404787232_1_alg».proof.Proof.Gen.Kernel.Skeleton
import proofs.«112051_j78168404787232_1_alg».proof.Proof.Gen.Kernel.Launch
import proofs.«112051_j78168404787232_1_alg».proof.Proof.Gen.Kernel.Points
import proofs.«112051_j78168404787232_1_alg».proof.Proof.Gen.Kernel.Frame
import proofs.«112051_j78168404787232_1_alg».proof.Proof.Gen.KernelIdeal
import proofs.«112051_j78168404787232_1_alg».proof.Proof.Gen.KernelIdeal.Skeleton
import proofs.«112051_j78168404787232_1_alg».proof.Proof.Gen.KernelIdeal.Launch
import proofs.«112051_j78168404787232_1_alg».proof.Proof.Gen.KernelIdeal.Points
import proofs.«112051_j78168404787232_1_alg».proof.Proof.Gen.KernelIdeal.Frame
import proofs.«112051_j78168404787232_1_alg».proof.Proof.Gen.ReferenceIdeal
import proofs.«112051_j78168404787232_1_alg».proof.Proof.Gen.Pre_finite_inputs
import proofs.«112051_j78168404787232_1_alg».proof.Proof.Gen.KernelIdeal.Value
import proofs.«112051_j78168404787232_1_alg».proof.Proof.Gen.ReferenceIdeal.Run
import proofs.«112051_j78168404787232_1_alg».proof.Proof.Gen.ReferenceIdeal.Read
import proofs.«112051_j78168404787232_1_alg».proof.Proof.Dilation
import proofs.«112051_j78168404787232_1_alg».proof.Proof.Blocks
import proofs.«112051_j78168404787232_1_alg».proof.Proof.Stacked
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the image and the offsets, both programs end with the dilation of the image's
    zero padding by the offsets. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq_dilate, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
